-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S512x128 : Shape := ⟨2, ![512, 128]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_

variable [Facts]

def fn {F : FTy → Type} [FloatOps F] (main_arg0 : FVec F S2048x512 .f32) (main_arg1 : FVec F S512x128 .f32) (main_arg2 : FVec F S512x128 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  main_v13
-- ==== Kernel.lean ====
abbrev S2048x512 : Shape := ⟨2, ![2048, 512]⟩
abbrev S512x128 : Shape := ⟨2, ![512, 128]⟩
abbrev S512x2048 : Shape := ⟨2, ![512, 2048]⟩
abbrev S512x262144 : Shape := ⟨2, ![512, 262144]⟩
abbrev S128x128 : Shape := ⟨2, ![128, 128]⟩
abbrev S128x16384 : Shape := ⟨2, ![128, 16384]⟩
abbrev S128x128x1 : Shape := ⟨3, ![128, 128, 1]⟩
abbrev S128x1x128 : Shape := ⟨3, ![128, 1, 128]⟩
abbrev S128x128x128 : Shape := ⟨3, ![128, 128, 128]⟩

abbrev nBuf : Space → Nat
  | .hbm => 5
  | .vmem => 8
  | .smem => 0
  | _ => 0

abbrev bufTy : (tb : Table) → Fin (tcTables nBuf tb) → BufTy
  | .hbm, ⟨0, _⟩ => ⟨S2048x512, .f32⟩
  | .hbm, ⟨1, _⟩ => ⟨S512x128, .f32⟩
  | .hbm, ⟨2, _⟩ => ⟨S512x128, .f32⟩
  | .hbm, ⟨3, _⟩ => ⟨S512x2048, .f32⟩
  | .hbm, ⟨4, _⟩ => ⟨S512x262144, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x16384, .f32⟩
  | .local _ .vmem, ⟨7, _⟩ => ⟨S128x16384, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S2048x512_S512x2048_1_0 : S2048x512.Transposes [1, 0] S512x2048
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x128x1 : S128x128.ShapeCasts S128x128x1
  shapeCasts_S128x128_S128x1x128 : S128x128.ShapeCasts S128x1x128
  broadcasts_S128x128x1_S128x128x128 : S128x128x1.Broadcasts S128x128x128
  broadcasts_S128x1x128_S128x128x128 : S128x1x128.Broadcasts S128x128x128
  shapeCasts_S128x128x128_S128x16384 : S128x128x128.ShapeCasts S128x16384
  inb_S128x16384_S128x16384_0_0 : ∀ a, (![0, 0] : Fin 2 → Nat) a + S128x16384.size a ≤ S128x16384.size a
  h_S128x16384 : 0 < S128x16384.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S512x2048.size a
  hwx0_0 : ∀ i : grid0.Coords, EltTy.bits .f32 = 32 ∨ (Rect.block (s := S512x2048) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S512x128.size a
  hwx0_1 : ∀ i : grid0.Coords, EltTy.bits .f32 = 32 ∨ (Rect.block (s := S512x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S512x128.size a
  hwx0_2 : ∀ i : grid0.Coords, EltTy.bits .f32 = 32 ∨ (Rect.block (s := S512x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x16384.size a ≤ S512x262144.size a
  hwx0_3 : ∀ i : grid0.Coords, EltTy.bits .f32 = 32 ∨ (Rect.block (s := S512x262144) S128x16384.size (cc0_transform_3 i) (hinb0_3 i)).WholeWords (EltTy.packing .f32)

variable [Facts₀]

abbrev win0_0 : Pipeline.Window sig grid0 :=
  Pipeline.Window.ofSpec (Memref.whole main_v0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x16384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x512 : Shape := ⟨2, ![2048, 512]⟩
abbrev S512x128 : Shape := ⟨2, ![512, 128]⟩
abbrev S2048x512x1 : Shape := ⟨3, ![2048, 512, 1]⟩
abbrev S1x512x128 : Shape := ⟨3, ![1, 512, 128]⟩
abbrev S2048x512x128 : Shape := ⟨3, ![2048, 512, 128]⟩
abbrev S512x2048x128 : Shape := ⟨3, ![512, 2048, 128]⟩
abbrev S512x262144 : Shape := ⟨2, ![512, 262144]⟩

abbrev nBuf : Space → Nat
  | .hbm => 14
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x128, .f32⟩
  | .hbm, ⟨2, _⟩ => ⟨S512x128, .f32⟩
  | .hbm, ⟨3, _⟩ => ⟨S2048x512x1, .f32⟩
  | .hbm, ⟨4, _⟩ => ⟨S512x128, .f32⟩
  | .hbm, ⟨5, _⟩ => ⟨S1x512x128, .f32⟩
  | .hbm, ⟨6, _⟩ => ⟨S2048x512x128, .f32⟩
  | .hbm, ⟨7, _⟩ => ⟨S2048x512x128, .f32⟩
  | .hbm, ⟨8, _⟩ => ⟨S2048x512x128, .f32⟩
  | .hbm, ⟨9, _⟩ => ⟨S1x512x128, .f32⟩
  | .hbm, ⟨10, _⟩ => ⟨S2048x512x128, .f32⟩
  | .hbm, ⟨11, _⟩ => ⟨S2048x512x128, .f32⟩
  | .hbm, ⟨12, _⟩ => ⟨S512x2048x128, .f32⟩
  | .hbm, ⟨13, _⟩ => ⟨S512x262144, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]

class Facts₀ : Prop where
  bcast_S2048x512_S2048x512x1_0_1 : S2048x512.BroadcastsInDim S2048x512x1 (![0, 1] : Fin 2 → Fin S2048x512x1.rank)
  bcast_S512x128_S1x512x128_1_2 : S512x128.BroadcastsInDim S1x512x128 (![1, 2] : Fin 2 → Fin S1x512x128.rank)
  bcast_S2048x512x1_S2048x512x128_0_1_2 : S2048x512x1.BroadcastsInDim S2048x512x128 (![0, 1, 2] : Fin 3 → Fin S2048x512x128.rank)
  bcast_S1x512x128_S2048x512x128_0_1_2 : S1x512x128.BroadcastsInDim S2048x512x128 (![0, 1, 2] : Fin 3 → Fin S2048x512x128.rank)
  transposes_S2048x512x128_S512x2048x128_1_0_2 : S2048x512x128.Transposes [1, 0, 2] S512x2048x128
  shapeCasts_S512x2048x128_S512x262144 : S512x2048x128.ShapeCasts S512x262144

variable [Facts₀]

class Facts : Prop extends Facts₀ where

variable [Facts]
-- ==== Proof.Spec.lean ====
/-
  The function both programs compute, index by index, on the extended reals.

  From a batch of rows `x : [2048, 512]`, per-feature weights `w : [512, 128]` and offsets `β : [512, 128]` the result is
  the `[512, 2048 · 128]` array whose row `i` lays the 2048 batch entries side by side, 128 lanes each:

      out[i, b · 128 + o] = x[b, i] · exp (w[i, o]) + β[i, o].

  A flat column `q` of the result therefore belongs to batch entry `q / 128` and lane `q % 128`. Nothing here is summed or
  cancelled: the value at an index is one product and one sum of three entries of the arguments, so the two programs agree
  at every extended real, the infinities included, and no finiteness of the inputs is used.
-/
import Idealize.ShloMosaic.PureOps.Ideal
import Idealize.ShloMosaic.Lib.ValueIdx

noncomputable section

namespace Cert.ScaledExpBias

open Idealize.ShloMosaic Idealize.ShloMosaic.ValueIdx

/-- The batch entry a flat column of the result belongs to: columns come in runs of 128 lanes. -/
abbrev batchOf (q : Fin 262144) : Fin 2048 := ⟨q.val / 128, by have := q.isLt; omega⟩

/-- The lane of a flat column inside its run of 128. -/
abbrev laneOf (q : Fin 262144) : Fin 128 := ⟨q.val % 128, by omega⟩

/-- `out[i, q] = x[q / 128, i] · exp (w[i, q % 128]) + β[i, q % 128]`, on the extended reals. -/
def result (x : FVec Ideal ⟨2, ![2048, 512]⟩ .f32) (w β : FVec Ideal ⟨2, ![512, 128]⟩ .f32) :
    FVec Ideal ⟨2, ![512, 262144]⟩ .f32 :=
  fun j => x (ix2 (batchOf (j 1)) (j 0)) * Ideal.exp (w (ix2 (j 0) (laneOf (j 1)))) + β (ix2 (j 0) (laneOf (j 1)))

/-- `result` at an index whose coordinates are named: feature `i`, batch entry `b`, lane `o`. -/
theorem result_apply (x : FVec Ideal ⟨2, ![2048, 512]⟩ .f32) (w β : FVec Ideal ⟨2, ![512, 128]⟩ .f32)
    (j : (⟨2, ![512, 262144]⟩ : Shape).Idx) (i : Fin 512) (b : Fin 2048) (o : Fin 128)
    (hi : i.val = (j 0).val) (hb : b.val = (j 1).val / 128) (ho : o.val = (j 1).val % 128) :
    result x w β j = x (ix2 b i) * Ideal.exp (w (ix2 i o)) + β (ix2 i o) := by
  have ei : i = j 0 := Fin.ext hi
  have eb : b = batchOf (j 1) := Fin.ext hb
  have eo : o = laneOf (j 1) := Fin.ext ho
  subst ei eb eo
  rfl

end Cert.ScaledExpBias

end
-- ==== Proof.RefValue.lean ====
/-
  The reference's result is the specified function.

  The reference broadcasts `x` to `[2048, 512, 128]` along a new last axis and `exp w`, `β` along a new first axis,
  multiplies and adds pointwise, swaps the two leading axes and flattens the two trailing ones. Read at a result index
  `(i, q)`: the flattening reads `(i, q / 128, q % 128)`, the swap `(q / 128, i, q % 128)`, and the three broadcasts read
  `x` at `(q / 128, i)` and `w`, `β` at `(i, q % 128)`. The host's exponential and the vector unit's are one function on
  the extended reals.
-/
import proofs.«144758_j9053791060273_1_alg».proof.Proof.Gen.ReferenceIdeal.Read
import proofs.«144758_j9053791060273_1_alg».proof.Proof.Spec

noncomputable section

namespace Cert.ReferenceIdeal.RefValue

open Idealize.ShloMosaic Idealize.ShloMosaic.TcCoe Idealize.ShloMosaic.ValueIdx
open Cert.ReferenceIdeal Cert.ReferenceIdeal.Read Cert.ScaledExpBias

/-- The reference's last stage, index by index, is `result` of the three arguments. -/
theorem reference_eq (x0 : (⟨S2048x512, .f32⟩ : BufTy).Contents (Elt Ideal))
    (x1 x2 : (⟨S512x128, .f32⟩ : BufTy).Contents (Elt Ideal)) :
    val_main_v10 (F := Ideal) x0 x1 x2 = result x0 x1 x2 := by
  funext i
  have hi0 : (i 0).val < 512 := (i 0).isLt
  have hi1 : (i 1).val < 262144 := (i 1).isLt
  rw [val_main_v10_apply, val_main_v9_apply, val_main_v8_apply, val_main_v5_apply, val_main_v3_apply, val_main_v0_apply,
    val_main_v4_apply, val_main_v2_apply, val_main_v1_apply, val_main_v7_apply, val_main_v6_apply]
  -- where the three arguments are read: the flat position `i 0 · 262144 + i 1` split back into (feature, batch, lane)
  have ex : idx_main_v0 (idx_main_v3 (idx_main_v9 (idx_main_v10 i))) = ix2 (batchOf (i 1)) (i 0) := by
    funext a; apply Fin.ext
    match a with
    | ⟨0, _⟩ => show ((i 0).val * 262144 + (i 1).val) / 128 % 2048 = (i 1).val / 128; omega
    | ⟨1, _⟩ => show ((i 0).val * 262144 + (i 1).val) / 262144 = (i 0).val; omega
  have ew : idx_main_v2 (idx_main_v4 (idx_main_v9 (idx_main_v10 i))) = ix2 (i 0) (laneOf (i 1)) := by
    funext a; apply Fin.ext
    match a with
    | ⟨0, _⟩ => show ((i 0).val * 262144 + (i 1).val) / 262144 = (i 0).val; omega
    | ⟨1, _⟩ => show ((i 0).val * 262144 + (i 1).val) % 128 = (i 1).val % 128; omega
  have eb : idx_main_v6 (idx_main_v7 (idx_main_v9 (idx_main_v10 i))) = ix2 (i 0) (laneOf (i 1)) := by
    funext a; apply Fin.ext
    match a with
    | ⟨0, _⟩ => show ((i 0).val * 262144 + (i 1).val) / 262144 = (i 0).val; omega
    | ⟨1, _⟩ => show ((i 0).val * 262144 + (i 1).val) % 128 = (i 1).val % 128; omega
  rw [ex, ew, eb]
  rfl

end Cert.ReferenceIdeal.RefValue

end
-- ==== Proof.KernelValue.lean ====
/-
  The kernel's result array is the specified function.

  The grid has 4 × 16 points. At point `(ti, tb)` the body sees three 128 × 128 blocks — rows `128·ti ‥` and columns
  `128·tb ‥` of the TRANSPOSED batch (the host transposes `x` before the call, so entry `(p, r)` of that block is
  `x[128·tb + r, 128·ti + p]`), and rows `128·ti ‥` of `w` and of `β` — and writes the 128 × 16384 block of the result
  at block index `(ti, tb)`: entry `(p, s)` is `xblk[p, s / 128] · exp (wblk[p, s % 128]) + βblk[p, s % 128]` (the
  outer product over the block's batch entries and the 128 lanes, flattened row-major). Since `16384 = 128 · 128`, the
  global column `q = 16384·tb + s` has `q / 128 = 128·tb + s / 128` and `q % 128 = s % 128`, so the block is the
  restriction of `result`. The 64 blocks tile the array: the point covering `(i, q)` is `(i / 128, q / 16384)`.
-/
import proofs.«144758_j9053791060273_1_alg».proof.Proof.Gen.KernelIdeal.Value
import proofs.«144758_j9053791060273_1_alg».proof.Proof.Spec
import Idealize.ShloMosaic.Lib.ValueLayout
import Idealize.ShloMosaic.Lib.StableHlo.Run

noncomputable section

namespace Cert.KernelIdeal.KernelValue

open Cert.KernelIdeal Cert.KernelIdeal.Gen Cert.KernelIdeal.Value Idealize.ShloMosaic Idealize.ShloMosaic.TcCoe Idealize.SL.Sem
open Idealize.ShloMosaic.ValueIdx Cert.ScaledExpBias
open Idealize.ShloMosaic.Pipeline (Dat)

/-! ## The body's block, for any float instance -/

section Body
variable {F : FTy → Type} [FloatOps F]

theorem zero_offsets : (![0, 0] : Fin 2 → Nat) = fun _ => 0 := funext fun a => by fin_cases a <;> rfl

/-- What the body leaves in the output buffer is, index by index, `x0[p, s / 128] · exp (x1[p, s % 128]) + x2[p, s % 128]`
    of the three loaded blocks: the loads read the buffers whole, and the one store's value re-lays the outer product. -/
theorem block_eq (x0 x1 x2 : Vec F S128x128 .f32) : out0_3 x0 x1 x2 = E3 x0 x1 x2 := by
  funext y
  unfold out0_3
  rw [canon3_eq]
  simp only [View.ld_unit_zero (S := S128x128) zero_offsets]

end Body

/-- The block's value at an index of the buffer, on the extended reals, from the three entries it reads. -/
theorem E3_apply (P0 P1 P2 : Vec Ideal S128x128 .f32) (y : S128x16384.Idx) (a e d : EReal)
    (h0 : P0 (ix3_0 y) = a) (h1 : P1 (ix3_1 y) = e) (h2 : P2 (ix3_2 y) = d) :
    E3 P0 P1 P2 y = a * Ideal.exp e + d := by
  unfold E3
  rw [h0, h1, h2]
  rfl

/-! ## At the extended reals -/

variable (m : (ℓ : Loc nD τ sig) → Buf (Elt Ideal) ℓ) (ρ : Dev nD → PrngReg)

/-- The array window 0 stages is the batch transposed: the one host operation before the call. -/
theorem V_main_v0 (c : Dev nD) :
    (V m c main_v0 : S512x2048.Idx → Elt Ideal .f32)
      = transpose S512x2048 [1, 0] (m ((c : Thread nD τ).loc main_arg0)) transposes_S2048x512_S512x2048_1_0 := by
  dsimp only [Gen.V, Gen.hostOps0]; after_results

/-- The printed index maps over the 64 grid points: every input window moves with the output's block row, the batch
    window also with its block column, and the block indices stay inside 4 × 16. -/
theorem idx_facts : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = 0
    ∧ win0_2.index t (0 : Fin 2) = win0_3.index t (0 : Fin 2) ∧ win0_2.index t (1 : Fin 2) = 0
    ∧ win0_3.index t (0 : Fin 2) ≤ 3 ∧ win0_3.index t (1 : Fin 2) ≤ 15 :=
  (by decide +kernel : ∀ t : Fin grid0.N, _)

/-- Every block index of the 4 × 16 box is some point's. -/
theorem idx_onto : ∀ (q0 : Fin 4) (q1 : Fin 16), ∃ t : Fin cfg0.N, win0_3.index t = ![q0.val, q1.val] :=
  (by decide +kernel : ∀ (q0 : Fin 4) (q1 : Fin 16), ∃ t : Fin grid0.N, win0_3.index t = ![q0.val, q1.val])

/-- The batch window's block at a point, read at `z`: the transposed batch at (block row · 128 + z 0, block column · 128
    + z 1), that is `x` at the swapped pair. -/
theorem batch_block_apply (c : Dev nD) (t : Fin cfg0.N) (z : S128x128.Idx) (i : Fin 512) (b : Fin 2048)
    (hi : i.val = win0_0.index t (0 : Fin 2) * 128 + (z 0).val) (hb : b.val = win0_0.index t (1 : Fin 2) * 128 + (z 1).val) :
    iblk m c 0 t z = m ((c : Thread nD τ).loc main_arg0) (ix2 b i) := by
  show V m c main_v0 (((cfg0.win 0).blk t).view.emb z) = _
  have he : ((cfg0.win 0).blk t).view.emb z = ix2 i b := by
    funext a; apply Fin.ext
    match a with
    | ⟨0, _⟩ => show win0_0.index t (0 : Fin 2) * 128 + 1 * (z 0).val = i.val; omega
    | ⟨1, _⟩ => show win0_0.index t (1 : Fin 2) * 128 + 1 * (z 1).val = b.val; omega
  rw [he, V_main_v0]
  exact transpose_ix2_apply _ _ i b

/-- The weight window's block at a point, read at `z`: `w` at (block row · 128 + z 0, z 1). -/
theorem weight_block_apply (c : Dev nD) (t : Fin cfg0.N) (z : S128x128.Idx) (i : Fin 512) (o : Fin 128)
    (hi : i.val = win0_1.index t (0 : Fin 2) * 128 + (z 0).val) (ho : o.val = win0_1.index t (1 : Fin 2) * 128 + (z 1).val) :
    iblk m c 1 t z = m ((c : Thread nD τ).loc main_arg1) (ix2 i o) := by
  show V m c main_arg1 (((cfg0.win 1).blk t).view.emb z) = _
  have he : ((cfg0.win 1).blk t).view.emb z = ix2 i o := by
    funext a; apply Fin.ext
    match a with
    | ⟨0, _⟩ => show win0_1.index t (0 : Fin 2) * 128 + 1 * (z 0).val = i.val; omega
    | ⟨1, _⟩ => show win0_1.index t (1 : Fin 2) * 128 + 1 * (z 1).val = o.val; omega
  rw [he, V_main_arg1]

/-- The offset window's block at a point, read at `z`: `β` at (block row · 128 + z 0, z 1). -/
theorem offset_block_apply (c : Dev nD) (t : Fin cfg0.N) (z : S128x128.Idx) (i : Fin 512) (o : Fin 128)
    (hi : i.val = win0_2.index t (0 : Fin 2) * 128 + (z 0).val) (ho : o.val = win0_2.index t (1 : Fin 2) * 128 + (z 1).val) :
    iblk m c 2 t z = m ((c : Thread nD τ).loc main_arg2) (ix2 i o) := by
  show V m c main_arg2 (((cfg0.win 2).blk t).view.emb z) = _
  have he : ((cfg0.win 2).blk t).view.emb z = ix2 i o := by
    funext a; apply Fin.ext
    match a with
    | ⟨0, _⟩ => show win0_2.index t (0 : Fin 2) * 128 + 1 * (z 0).val = i.val; omega
    | ⟨1, _⟩ => show win0_2.index t (1 : Fin 2) * 128 + 1 * (z 1).val = o.val; omega
  rw [he, V_main_arg2]

/-- What point `t` writes back is block `t` of `result` of the three arguments. -/
theorem flushed_eq (c : Dev nD) (t : Fin cfg0.N) :
    (dats m 0 c).flushed 3 t = ((cfg0.win 3).blk t).view.read (Elt Ideal)
      (result (m ((c : Thread nD τ).loc main_arg0)) (m ((c : Thread nD τ).loc main_arg1)) (m ((c : Thread nD τ).loc main_arg2))) := by
  rw [flushed3, block_eq]
  obtain ⟨e00, e01, e10, e11, e20, e21, l0, l1⟩ := idx_facts t
  funext y
  have hy0 : (y 0).val < 128 := (y 0).isLt
  have hy1 : (y 1).val < 16384 := (y 1).isLt
  obtain ⟨i, hi⟩ : ∃ i : Fin 512, i.val = win0_3.index t (0 : Fin 2) * 128 + (y 0).val := ⟨⟨_, by omega⟩, rfl⟩
  obtain ⟨b, hb⟩ : ∃ b : Fin 2048, b.val = win0_3.index t (1 : Fin 2) * 128 + (y 1).val / 128 := ⟨⟨_, by omega⟩, rfl⟩
  obtain ⟨o, ho⟩ : ∃ o : Fin 128, o.val = (y 1).val % 128 := ⟨⟨_, by omega⟩, rfl⟩
  show E3 (iblk m c 0 t) (iblk m c 1 t) (iblk m c 2 t) y = _
  rw [E3_apply (iblk m c 0 t) (iblk m c 1 t) (iblk m c 2 t) y _ _ _
    (batch_block_apply m c t (ix3_0 y) i b (by show i.val = win0_0.index t (0 : Fin 2) * 128 + (y 0).val; omega)
      (by show b.val = win0_0.index t (1 : Fin 2) * 128 + (y 1).val / 128; omega))
    (weight_block_apply m c t (ix3_1 y) i o (by show i.val = win0_1.index t (0 : Fin 2) * 128 + (y 0).val; omega)
      (by show o.val = win0_1.index t (1 : Fin 2) * 128 + (y 1).val % 128; omega))
    (offset_block_apply m c t (ix3_2 y) i o (by show i.val = win0_2.index t (0 : Fin 2) * 128 + (y 0).val; omega)
      (by show o.val = win0_2.index t (1 : Fin 2) * 128 + (y 1).val % 128; omega))]
  refine (result_apply _ _ _ (((cfg0.win 3).blk t).view.emb y) i b o ?_ ?_ ?_).symm
  · show i.val = win0_3.index t (0 : Fin 2) * 128 + 1 * (y 0).val; omega
  · show b.val = (win0_3.index t (1 : Fin 2) * 16384 + 1 * (y 1).val) / 128; omega
  · show o.val = (win0_3.index t (1 : Fin 2) * 16384 + 1 * (y 1).val) % 128; omega

/-- An index of the result is in point `t`'s block iff each coordinate is in the block's range on its axis. -/
theorem mem_blk (t : Fin cfg0.N) (i : S512x262144.Idx) :
    i ∈ ((cfg0.win 3).blk t).view.set ↔ ∀ a : Fin 2, win0_3.index t a * S128x16384.size a ≤ (i a).val
      ∧ (i a).val < win0_3.index t a * S128x16384.size a + S128x16384.size a := by
  show i ∈ ((View.whole main_v1).slice (win0_3.rect t)).set ↔ _
  rw [View.set_slice_whole, Rect.mem_set_unit]
  exact Iff.rfl

/-- The 64 blocks tile the result: `(i, q)` lies in the block of the point at block index `(i / 128, q / 16384)`. -/
theorem cover (i : S512x262144.Idx) :
    ∃ t : Fin cfg0.N, (cfg0.win 3).flush t = true ∧ i ∈ ((cfg0.win 3).blk t).view.set := by
  have hi0 : (i 0).val < 512 := (i 0).isLt
  have hi1 : (i 1).val < 262144 := (i 1).isLt
  obtain ⟨t, ht⟩ := idx_onto ⟨(i 0).val / 128, by omega⟩ ⟨(i 1).val / 16384, by omega⟩
  have q0 : win0_3.index t (0 : Fin 2) = (i 0).val / 128 := congrFun ht 0
  have q1 : win0_3.index t (1 : Fin 2) = (i 1).val / 16384 := congrFun ht 1
  refine ⟨t, flush0_3 t, ?_⟩
  rw [mem_blk]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 16384 ≤ (i 1).val ∧ (i 1).val < win0_3.index t (1 : Fin 2) * 16384 + 16384; omega

/-- So after the run the result array IS `result` of the three arguments. -/
theorem final (c : Dev nD) : (dats m 0 c).arrAt 3 cfg0.N
    = result (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run with its result named: `result` of the arguments, which end unchanged. -/
theorem run : θ_run defs (onTc (τ := τ) (main (F := Ideal))) ⟨m, fun _ => 0, ρ⟩ fun r => ∀ c : Dev nD,
      r.2.mem ((c : Thread nD τ).loc main_v1)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KernelValue

end
-- ==== Proof.lean ====
/-
  Kernel and reference compute one function on the extended reals:

      out[i, b · 128 + o] = x[b, i] · exp (w[i, o]) + β[i, o]      (x : [2048, 512], w, β : [512, 128], out : [512, 262144]).

  The kernel transposes `x` on the host and then, on a 4 × 16 grid, forms for each 128 × 128 tile of the transposed batch
  the outer product with 128 lanes of `exp w`, adds `β` and stores the 128 × 16384 block; the 64 blocks tile the result
  (Proof/KernelValue.lean). The reference broadcasts the three arguments to `[2048, 512, 128]`, multiplies, adds, swaps
  the two leading axes and flattens the two trailing ones (Proof/RefValue.lean). Both are `ScaledExpBias.result`
  (Proof/Spec.lean) index by index: one product and one sum of the same three entries, the exponential the same function
  on both sides, so the equality holds at every extended real and the finiteness of the inputs is not used.
  The idealization rewrote nothing, so `preserves` is trivial; each kernel program's frame is its run with the result
  dropped, and the reference's frame is its run with the result dropped.
-/
import proofs.«144758_j9053791060273_1_alg».proof.Defs
import proofs.«144758_j9053791060273_1_alg».proof.Proof.Gen.Kernel
import proofs.«144758_j9053791060273_1_alg».proof.Proof.Gen.Kernel.Skeleton
import proofs.«144758_j9053791060273_1_alg».proof.Proof.Gen.Kernel.Launch
import proofs.«144758_j9053791060273_1_alg».proof.Proof.Gen.Kernel.Points
import proofs.«144758_j9053791060273_1_alg».proof.Proof.Gen.Kernel.Frame
import proofs.«144758_j9053791060273_1_alg».proof.Proof.Gen.KernelIdeal
import proofs.«144758_j9053791060273_1_alg».proof.Proof.Gen.KernelIdeal.Skeleton
import proofs.«144758_j9053791060273_1_alg».proof.Proof.Gen.KernelIdeal.Launch
import proofs.«144758_j9053791060273_1_alg».proof.Proof.Gen.KernelIdeal.Points
import proofs.«144758_j9053791060273_1_alg».proof.Proof.Gen.KernelIdeal.Frame
import proofs.«144758_j9053791060273_1_alg».proof.Proof.Gen.ReferenceIdeal
import proofs.«144758_j9053791060273_1_alg».proof.Proof.Gen.Pre_finite_inputs
import proofs.«144758_j9053791060273_1_alg».proof.Proof.Gen.KernelIdeal.Value
import proofs.«144758_j9053791060273_1_alg».proof.Proof.Gen.ReferenceIdeal.Run
import proofs.«144758_j9053791060273_1_alg».proof.Proof.Gen.ReferenceIdeal.Read
import proofs.«144758_j9053791060273_1_alg».proof.Proof.Spec
import proofs.«144758_j9053791060273_1_alg».proof.Proof.RefValue
import proofs.«144758_j9053791060273_1_alg».proof.Proof.KernelValue
import Idealize.ShloMosaic.Adequacy
import Idealize.ShloMosaic.Init

noncomputable section

namespace Cert.Proof

open Idealize.ShloMosaic Idealize.SL.Sem

/-- The word-level kernel runs, faults nowhere and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments both programs end with `result` of them. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
